-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S50000x64 : Shape := ⟨2, ![50000, 64]⟩
abbrev S5000x64 : Shape := ⟨2, ![5000, 64]⟩
abbrev S128x64 : Shape := ⟨2, ![128, 64]⟩
abbrev S1x64 : Shape := ⟨2, ![1, 64]⟩
abbrev S5000 : Shape := ⟨1, ![5000]⟩
abbrev S5000x1 : Shape := ⟨2, ![5000, 1]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S64x128, .f32⟩
  | .local _ .vmem, ⟨14, _⟩ => ⟨S64, .f32⟩
  | .local _ .vmem, ⟨15, _⟩ => ⟨S64x128, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S128x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S_, .f32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x1, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000, .f32⟩
  | .hbm, ⟨95, _⟩ => ⟨S50000x1, .f32⟩
  | .hbm, ⟨96, _⟩ => ⟨S50000x1, .f32⟩
  | .hbm, ⟨97, _⟩ => ⟨S50000x64, .f32⟩
  | .hbm, ⟨98, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩
abbrev main_call2_cst : Ref sig .tc := ⟨.hbm, 84, rfl⟩
abbrev main_call2_v0 : Ref sig .tc := ⟨.hbm, 85, rfl⟩
abbrev main_call2_cst_0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_cst_1 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_v60 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.SegMean.lean ====
import proofs.«181662_j20512763806336_1_alg».proof.Proof.Gen.KernelIdeal

/-!
# The mean of the source rows over each destination node, as one function of the feature array and the two index vectors

Both layers aggregate in the same way: the rows of the feature array `x` are gathered at the source indices (a negative
index wrapped by the node count first), added up per destination index into an array of zeros, and each node's sum is
divided by the number of edges that end at it, at least one. `segMeanOf x src dst` is that chain of host operations
written once; `srcOf e` and `dstOf e` are rows 0 and 1 of the edge array `e`, flattened. The chain is never opened:
both programs apply it, so it only has to be recognised.
-/

noncomputable section

namespace Cert.Sage

open Idealize.ShloMosaic Cert.KernelIdeal Cert.KernelIdeal.Gen

variable {F : FTy → Type} [FloatOps F]

/-- Row 0 of the edge array: the source node of every edge. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge array: the destination node of every edge. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The per-destination mean of the rows of `x` at the source indices: gather, scatter-add into zeros, divide by the
    edge count clamped below by one. -/
def segMeanOf (x : (⟨S50000x128, .f32⟩ : BufTy).Contents (Elt F)) (src dst : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

end Cert.Sage

end
-- ==== Proof.KernelHost.lean ====
import proofs.«181662_j20512763806336_1_alg».proof.Proof.Gen.KernelIdeal.Frame
import proofs.«181662_j20512763806336_1_alg».proof.Proof.SegMean

/-!
# The host side of the two-layer program, at any float model

Between the launch and the first region the program computes, by host operations, the two flattened index vectors of
the edge array and the per-destination mean of the launch features' source rows; between the two regions it applies the
same chain to the first region's output. Read at the buffers the regions take:

* the first region is entered with that mean in `main_v22` and with the feature, weight and bias arguments as launched;
* at its exit its output array `main_v23` holds what its write-backs leave, and the two index vectors are untouched;
* the second region is entered with the mean of its predecessor's output in `main_v42`, that output itself in
  `main_v23`, and its weight and bias arguments as launched;
* at its exit the result array `main_v43` holds what its write-backs leave.

The aggregation chain is recognised as `Cert.Sage.segMeanOf` and never opened.
-/

set_option maxRecDepth 16384

noncomputable section

namespace Cert.KernelIdeal.HostV

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (ρ : Dev nD → PrngReg)

/-! ## The first region's entry -/

set_option maxHeartbeats 1000000 in
/-- Region 0 is entered with the aggregated features in `main_v22`: the first stretch's operations, composed, are the mean of
    the launch features' source rows over each destination node. -/
theorem V1_mean (c : Dev nD) : V1 m ρ c main_v22 = Cert.Sage.segMeanOf (m ((c : Thread nD τ).loc main_arg0)) (Cert.Sage.srcOf (m ((c : Thread nD τ).loc main_arg1))) (Cert.Sage.dstOf (m ((c : Thread nD τ).loc main_arg1))) := by
  dsimp only [V1, W1]
  after_results_simp
  rfl

/-- No operation of the first stretch writes argument 0: region 0 is entered with it as launched. -/
theorem V1_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

/-- No operation of the first stretch writes argument 2: region 0 is entered with it as launched. -/
theorem V1_arg2 (c : Dev nD) : V1 m ρ c main_arg2 = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

/-- No operation of the first stretch writes argument 3: region 0 is entered with it as launched. -/
theorem V1_arg3 (c : Dev nD) : V1 m ρ c main_arg3 = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- No operation of the first stretch writes argument 4: region 0 is entered with it as launched. -/
theorem V1_arg4 (c : Dev nD) : V1 m ρ c main_arg4 = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-! ## The first region's exit -/

/-- Region 0's output array at its exit: what the pipeline's write-backs leave in window 5's array. -/
theorem W2_h (c : Dev nD) : W2 m ρ c (Proc.devRef .tc main_v23) = (dat0 (V1 m ρ) c).arrAt 5 cfg0.N :=
  W2_arr m ρ c 5

/-- The flattened source indices, written by the first stretch and no array of region 0, are still in `main_v1` at its exit. -/
theorem W2_src (c : Dev nD) : W2 m ρ c (Proc.devRef .tc main_v1) = Cert.Sage.srcOf (m ((c : Thread nD τ).loc main_arg1)) :=
  calc W2 m ρ c (Proc.devRef .tc main_v1)
    _ = W1 m ρ c (Proc.devRef .tc main_v1) := W2_of_ne m ρ c main_v1 (by decide)
    _ = Cert.Sage.srcOf (m ((c : Thread nD τ).loc main_arg1)) := by
      dsimp only [W1]
      after_results_simp
      rfl

/-- The flattened destination indices likewise, in `main_v3`. -/
theorem W2_dst (c : Dev nD) : W2 m ρ c (Proc.devRef .tc main_v3) = Cert.Sage.dstOf (m ((c : Thread nD τ).loc main_arg1)) :=
  calc W2 m ρ c (Proc.devRef .tc main_v3)
    _ = W1 m ρ c (Proc.devRef .tc main_v3) := W2_of_ne m ρ c main_v3 (by decide)
    _ = Cert.Sage.dstOf (m ((c : Thread nD τ).loc main_arg1)) := by
      dsimp only [W1]
      after_results_simp
      rfl

/-! ## The second region's entry -/

set_option maxHeartbeats 1000000 in
/-- Region 1 is entered with the aggregated hidden features in `main_v42`: the second stretch applies the same chain to region 0's
    output and the same two index vectors. -/
theorem V3_mean (c : Dev nD) : V3 m ρ c main_v42 = Cert.Sage.segMeanOf (W2 m ρ c (Proc.devRef .tc main_v23)) (Cert.Sage.srcOf (m ((c : Thread nD τ).loc main_arg1))) (Cert.Sage.dstOf (m ((c : Thread nD τ).loc main_arg1))) := by
  dsimp only [V3, W3]
  after_results_simp
  rw [W2_src m ρ c, W2_dst m ρ c]
  rfl

/-- The second stretch reads region 0's output and does not write it. -/
theorem V3_h (c : Dev nD) : V3 m ρ c main_v23 = W2 m ρ c (Proc.devRef .tc main_v23) :=
  StableHlo.after_of_forall_not_mem (b := Proc.devRef .tc main_v23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of either stretch writes argument 5 and it is no array of region 0: region 1 is entered with it as launched. -/
theorem V3_arg5 (c : Dev nD) : V3 m ρ c main_arg5 = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- No operation of either stretch writes argument 6 and it is no array of region 0: region 1 is entered with it as launched. -/
theorem V3_arg6 (c : Dev nD) : V3 m ρ c main_arg6 = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

/-- No operation of either stretch writes argument 7 and it is no array of region 0: region 1 is entered with it as launched. -/
theorem V3_arg7 (c : Dev nD) : V3 m ρ c main_arg7 = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

/-! ## The second region's exit -/

/-- Region 1's output array at its exit: what the pipeline's write-backs leave in window 5's array. -/
theorem W4_out (c : Dev nD) : W4 m ρ c (Proc.devRef .tc main_v43) = (dat1 (V3 m ρ) c).arrAt 5 cfg1.N :=
  W4_arr m ρ c 5

end Cert.KernelIdeal.HostV

end
-- ==== Proof.SageDefs.lean ====
import Idealize.ShloMosaic.PureOps.Ideal
import Idealize.ShloMosaic.Lib.ValueIdx

/-!
# A mean-aggregating graph convolution layer and a row-wise log-softmax, entry by entry on the extended reals

For an array `mean` of aggregated neighbour features and an array `x` of root features, both `a × K`, weights `Wl`, `Wr`
stored output-major (`N × K`) and a bias `bl` of length `N`, the layer's entry `(r, q)` is
`(∑ k, mean[r, k] · Wl[q, k] + bl[q]) + ∑ k, x[r, k] · Wr[q, k]` (`conv`), followed by `max · 0` (`hid`).
The log-softmax of a row subtracts the row's maximum and then the logarithm of the sum of the exponentials (`lsm`).
Every entry of row `r` of a result depends on row `r` of the operands only, so the same definitions serve a block of
rows and the whole array.
-/

noncomputable section

namespace Cert.Sage

open Idealize.ShloMosaic Idealize.ShloMosaic.ValueIdx

/-- An `a × n` array of extended reals. -/
abbrev Mat (a n : Nat) := (⟨2, ![a, n]⟩ : Shape).Idx → EReal
/-- A vector of `n` extended reals. -/
abbrev Row (n : Nat) := (⟨1, ![n]⟩ : Shape).Idx → EReal

/-- The extended real that the word `0xFF800000` denotes (minus infinity). Both programs fold their row maxima from this
    same word, so its value is never needed. -/
def ninf : EReal := Ideal.ofBits .f32 0xFF800000#32

/-- Entry `(r, q)` of the convolution: `(∑ k, mean[r, k] · Wl[q, k] + bl[q]) + ∑ k, x[r, k] · Wr[q, k]`. -/
def conv {a K N : Nat} (mean x : Mat a K) (Wl : Mat N K) (bl : Row N) (Wr : Mat N K) : Mat a N :=
  fun i => ((∑ k : Fin K, mean (ix2 (i 0) k) * Wl (ix2 (i 1) k)) + bl (ix1 (i 1)))
    + ∑ k : Fin K, x (ix2 (i 0) k) * Wr (ix2 (i 1) k)

/-- The hidden layer: the convolution followed by `max · 0`, entry by entry. -/
def hid {a K N : Nat} (mean x : Mat a K) (Wl : Mat N K) (bl : Row N) (Wr : Mat N K) : Mat a N :=
  fun i => max (conv mean x Wl bl Wr i) 0

/-- The maximum of row `r`, folded from minus infinity. -/
def rowMax {a n : Nat} (z : Mat a n) (r : Fin a) : EReal :=
  (Finset.univ : Finset (Fin n)).fold max ninf (fun k => z (ix2 r k))

/-- The log-softmax of every row: `(z[r, q] - m_r) - log (∑ k, exp (z[r, k] - m_r))` with `m_r` the row's maximum. -/
def lsm {a n : Nat} (z : Mat a n) : Mat a n :=
  fun i => (z i - rowMax z (i 0)) - Ideal.log (∑ k : Fin n, Ideal.exp (z (ix2 (i 0) k) - rowMax z (i 0)))

/-- The output layer: the hidden layer's formula followed by the row-wise log-softmax. -/
def outl {a K N : Nat} (mean h : Mat a K) (Wl : Mat N K) (bl : Row N) (Wr : Mat N K) : Mat a N :=
  lsm (hid mean h Wl bl Wr)

theorem hid_apply {a K N : Nat} (mean x : Mat a K) (Wl : Mat N K) (bl : Row N) (Wr : Mat N K) (r : Fin a) (q : Fin N) :
    hid mean x Wl bl Wr (ix2 r q)
      = max (((∑ k : Fin K, mean (ix2 r k) * Wl (ix2 q k)) + bl (ix1 q)) + ∑ k : Fin K, x (ix2 r k) * Wr (ix2 q k)) 0 := rfl

theorem lsm_apply {a n : Nat} (z : Mat a n) (r : Fin a) (q : Fin n) :
    lsm z (ix2 r q) = (z (ix2 r q) - rowMax z r) - Ideal.log (∑ k : Fin n, Ideal.exp (z (ix2 r k) - rowMax z r)) := rfl

/-- Row `r` of the hidden layer is a function of row `r` of each operand. -/
theorem hid_rows {a a' K N : Nat} (mean x : Mat a K) (mean' x' : Mat a' K) (Wl : Mat N K) (bl : Row N) (Wr : Mat N K)
    (r : Fin a) (r' : Fin a') (hm : ∀ k : Fin K, mean (ix2 r k) = mean' (ix2 r' k))
    (hx : ∀ k : Fin K, x (ix2 r k) = x' (ix2 r' k)) (q : Fin N) :
    hid mean x Wl bl Wr (ix2 r q) = hid mean' x' Wl bl Wr (ix2 r' q) := by
  rw [hid_apply, hid_apply]
  simp only [hm, hx]

/-- Row `r` of the log-softmax is a function of row `r` of the operand. -/
theorem lsm_rows {a a' n : Nat} (z : Mat a n) (z' : Mat a' n) (r : Fin a) (r' : Fin a')
    (hz : ∀ k : Fin n, z (ix2 r k) = z' (ix2 r' k)) (q : Fin n) : lsm z (ix2 r q) = lsm z' (ix2 r' q) := by
  have hmax : rowMax z r = rowMax z' r' := by unfold rowMax; simp only [hz]
  rw [lsm_apply, lsm_apply, hmax]
  simp only [hz]

/-- Row `r` of the output layer is a function of row `r` of each operand. -/
theorem outl_rows {a a' K N : Nat} (mean h : Mat a K) (mean' h' : Mat a' K) (Wl : Mat N K) (bl : Row N) (Wr : Mat N K)
    (r : Fin a) (r' : Fin a') (hm : ∀ k : Fin K, mean (ix2 r k) = mean' (ix2 r' k))
    (hh : ∀ k : Fin K, h (ix2 r k) = h' (ix2 r' k)) (q : Fin N) :
    outl mean h Wl bl Wr (ix2 r q) = outl mean' h' Wl bl Wr (ix2 r' q) :=
  lsm_rows _ _ r r' (fun k => hid_rows mean h mean' h' Wl bl Wr r r' hm hh k) q

end Cert.Sage

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibRowFold.lean ====
import Idealize.ShloMosaic.PureOps.Ideal.Laws
import Idealize.ShloMosaic.Lib.ValueIdx
import Idealize.ShloMosaic.Lib.Pipeline.Value

/-!
# A tile with two leading unit axes, and a row's maximum as a fold

A pipelined kernel that squeezes the batch and head axes of a rank-4 array sees each block as `[1, 1, a, b]` and casts it
to the matrix `[a, b]` on the way in and back on the way out: the matrix at `(i, j)` is the block at `(0, 0, i, j)`.
A `vector.multi_reduction <maximumf>` of an `[a, b]` matrix over axis 1 is, on the extended reals, at row `i` the fold of
`max` over the row's entries, started from the accumulator's value.
-/

noncomputable section

namespace Cert.LibRowFold

open Idealize.ShloMosaic Idealize.ShloMosaic.ValueIdx

variable {α : Type}

/-- A `[1, 1, a, b]` block cast to the matrix `[a, b]` reads, at `(i, j)`, the block at `(0, 0, i, j)`: both sit at
    row-major position `i · b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- The matrix `[a, b]` cast to a `[1, 1, a, b]` block reads, at `(u, v, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.mul_one, Nat.add_zero])

/-- On the extended reals a `vector.multi_reduction <maximumf>` of an `[a, b]` matrix over axis 1 is, at row `i`, the
    fold of `max` from the accumulator's value over the entries `(i, k)` of the row. -/
theorem rowMax_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f) (funext fun k => ?_)
  refine congrArg src (funext fun ax => Fin.ext ?_)
  match ax with
  | ⟨0, _⟩ => rfl
  | ⟨1, _⟩ => rfl

end Cert.LibRowFold

end
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.LibSoftmaxRows.lean ====
import proofs.«181662_j20512763806336_1_alg».proof.Proof.LibRowFold
import proofs.«181662_j20512763806336_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

/-!
# A row softmax read at an entry, on the extended reals

`smaxOf l q` is the softmax of one row `l : Fin n → EReal` at position `q` as jax.nn.softmax computes it: with
`mxOf l` the row's maximum folded from -inf and joined with -inf once more, `exp (l q - mxOf l)` over the sum of
`exp (l j - mxOf l)`. A Pallas kernel's spelling over a block `[a, n]` — lane reductions `multi_reduction <maximumf>`
from -inf and `<add>` from zero along axis 1, each result re-laid `[a] → [a, 1] → [a, n]` — is `smaxOf` of the block's
row at every entry (`kerSoftmax_apply`, with `kerMax_apply` and `kerExp_apply` for its stages, `keep_apply` for the
keepdims re-lay and `biasRow_apply` for a `[n]` vector re-laid as a row and spread down the rows). The host's
`stablehlo.reduce` with maximum over axis 1 of `[a, n]` is the same fold of `max` over the row (`hostRowMax_apply`).
-/

set_option maxRecDepth 16384

noncomputable section

namespace Cert.LibSoftmaxRows

open Idealize.ShloMosaic Idealize.ShloMosaic.TcCoe Idealize.ShloMosaic.ValueIdx

/-! ## The softmax of one row, as a function of the row -/

section RowSoftmax
variable {n : ℕ}

/-- The extended real the word `0xFF800000` denotes (minus infinity); both sides fold from this same word, so its value is
    never needed. -/
def ninf : EReal := Ideal.ofBits .f32 0xFF800000#32

/-- A row's maximum as both programs take it: the fold of `max` over the row from `ninf`, joined with `ninf` once more. -/
def mxOf (l : Fin n → EReal) : EReal := max ninf ((Finset.univ : Finset (Fin n)).fold max ninf l)

/-- The softmax of the row `l` at lane `q`: `exp (l q - m) / ∑ j, exp (l j - m)` with `m` the row's maximum. -/
def smaxOf (l : Fin n → EReal) (q : Fin n) : EReal :=
  Ideal.div (Ideal.exp (l q - mxOf l)) (∑ j : Fin n, Ideal.exp (l j - mxOf l))

end RowSoftmax

/-! ## The kernel's side -/

section Kernel
variable {α : Type}

/-- The exponential of a vector read at an index is the exponential of the element. -/
theorem exp_apply {s : Shape} {φ : FTy} (v : FVec Ideal s φ) (i : s.Idx) : exp v i = Ideal.exp (v i) := rfl

/-- An `[a]` vector re-laid as the column `[a, 1]` and spread along the row to `[a, n]` reads, at `(p, q)`, the vector at `p`. -/
theorem keep_apply {a n : ℕ} (u : (⟨1, ![a]⟩ : Shape).Idx → α) (h1 : (⟨1, ![a]⟩ : Shape).ShapeCasts ⟨2, ![a, 1]⟩)
    (h2 : (⟨2, ![a, 1]⟩ : Shape).Broadcasts ⟨2, ![a, n]⟩) (p : Fin a) (q : Fin n) :
    broadcastTo ⟨2, ![a, n]⟩ (shapeCast ⟨2, ![a, 1]⟩ u h1) h2 (ix2 p q) = u (ix1 p) :=
  (Cert.LibKeepdims.broadcastTo_a1_ab_apply _ h2 p q).trans (Cert.LibKeepdims.shapeCast_a_a1_apply u h1 p 0)

/-- An `[n]` vector re-laid as the row `[1, n]` (and cast once more to the same shape) and spread down `a` rows reads, at
    `(p, q)`, the vector at `q`. -/
theorem biasRow_apply {a n : ℕ} (b : (⟨1, ![n]⟩ : Shape).Idx → α) (h : (⟨1, ![n]⟩ : Shape).ShapeCasts ⟨2, ![1, n]⟩)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ (shapeCast ⟨2, ![1, n]⟩ b h) h1) h2 (ix2 p q) = b (ix1 q) := by
  rw [shapeCast_self]
  exact (broadcastTo_1b_ab_apply _ h2 p q).trans (shapeCast_a_1a_apply b h 0 q)

/-- The kernel's row maximum: the lane reduction from the minus-infinity word joined with that word's splat, at row `p`. -/
theorem kerMax_apply {a n : ℕ} (V : FVec Ideal (⟨2, ![a, n]⟩ : Shape) .f32)
    (hr : (⟨2, ![a, n]⟩ : Shape).Reduces [1] ⟨1, ![a]⟩) (hφ : FKind.Formats .f32)
    (hmax : (0xFF800000#32 : BitVec FTy.f32.bits) = FKind.maximumf.neutral .f32 hφ) (p : Fin a) :
    maximumf (broadcast (⟨1, ![a]⟩ : Shape) (FloatOps.ofBits (F := Ideal) .f32 0xFF800000#32))
        (multiReduction .maximumf [1] ⟨1, ![a]⟩ V 0xFF800000#32 hr hφ hmax) (ix1 p)
      = mxOf (fun j => V (ix2 p j)) := by
  rw [maximumf_apply, broadcast_apply, Cert.LibRowFold.rowMax_apply]
  rfl

end Kernel

section KernelBlock
variable {a n : ℕ} (V : FVec Ideal (⟨2, ![a, n]⟩ : Shape) .f32)
    (hr : (⟨2, ![a, n]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (h1 : (⟨1, ![a]⟩ : Shape).ShapeCasts ⟨2, ![a, 1]⟩) (h2 : (⟨2, ![a, 1]⟩ : Shape).Broadcasts ⟨2, ![a, n]⟩)

/-- The kernel's exponentials: `exp` of the array less its row maxima re-laid over the rows, at `(p, j)`. -/
theorem kerExp_apply (p : Fin a) (j : Fin n) :
    exp (subf V (broadcastTo ⟨2, ![a, n]⟩ (shapeCast ⟨2, ![a, 1]⟩
          (maximumf (broadcast (⟨1, ![a]⟩ : Shape) (FloatOps.ofBits (F := Ideal) .f32 0xFF800000#32))
            (multiReduction .maximumf [1] ⟨1, ![a]⟩ V 0xFF800000#32 hr hφ hmax)) h1) h2)) (ix2 p j)
      = Ideal.exp (V (ix2 p j) - mxOf (fun k => V (ix2 p k))) := by
  rw [exp_apply, subf_apply, keep_apply, kerMax_apply]

/-- The kernel's softmax block of an `[a, n]` array `V` (row maxima, exponentials, row sums from the zero word, quotient),
    read at `(p, q)`: the softmax of row `p` of `V` at lane `q`. -/
theorem kerSoftmax_apply (p : Fin a) (q : Fin n) :
    divf (exp (subf V (broadcastTo ⟨2, ![a, n]⟩ (shapeCast ⟨2, ![a, 1]⟩
          (maximumf (broadcast (⟨1, ![a]⟩ : Shape) (FloatOps.ofBits (F := Ideal) .f32 0xFF800000#32))
            (multiReduction .maximumf [1] ⟨1, ![a]⟩ V 0xFF800000#32 hr hφ hmax)) h1) h2)))
      (broadcastTo ⟨2, ![a, n]⟩ (shapeCast ⟨2, ![a, 1]⟩
        (multiReduction .add [1] ⟨1, ![a]⟩ (exp (subf V (broadcastTo ⟨2, ![a, n]⟩ (shapeCast ⟨2, ![a, 1]⟩
          (maximumf (broadcast (⟨1, ![a]⟩ : Shape) (FloatOps.ofBits (F := Ideal) .f32 0xFF800000#32))
            (multiReduction .maximumf [1] ⟨1, ![a]⟩ V 0xFF800000#32 hr hφ hmax)) h1) h2))) 0x00000000#32 hr hφ hadd) h1) h2)
      (ix2 p q)
    = smaxOf (fun j => V (ix2 p j)) q := by
  rw [divf_apply, keep_apply, Cert.LibKeepdims.rowSum_apply, kerExp_apply]
  unfold smaxOf
  exact congrArg (Ideal.div _) (Finset.sum_congr rfl fun j _ => kerExp_apply V hr hφ hmax h1 h2 p j)

end KernelBlock

/-! ## The host's row maximum -/

/-- The host's reduce with a maximum body over axis 1 of an `[a, n]` array, at row `p`: the fold of `max` over the row's
    entries from the initial value's element. -/
theorem hostRowMax_apply {a n : ℕ} (x : FVec Ideal (⟨2, ![a, n]⟩ : Shape) .f32) {u : Shape} (init : u.Idx → Ideal .f32)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  refine congrArg (fun f => (Finset.univ : Finset (Fin n)).fold max (init (Shape.Idx.first hu)) f) (funext fun k => ?_)
  refine congrArg x (funext fun ax => Fin.ext ?_)
  match ax with
  | ⟨0, _⟩ => rfl
  | ⟨1, _⟩ => rfl

end Cert.LibSoftmaxRows

end
-- ==== Proof.SageSpec.lean ====
import proofs.«181662_j20512763806336_1_alg».proof.Proof.SageDefs
import proofs.«181662_j20512763806336_1_alg».proof.Proof.LibContract
import Mathlib.Data.Finset.Fold
import proofs.«181662_j20512763806336_1_alg».proof.Proof.LibSoftmaxRows
import Idealize.ShloMosaic.Lib.StableHlo.Predicate
import Idealize.ShloMosaic.PureOps.Ideal.Laws
import Idealize.ShloMosaic.Lib.ValueIdx
import Idealize.ShloMosaic.Lib.Pipeline.Value

/-!
# The two spellings of the layer and of the log-softmax, each equal to its entry-by-entry formula

A kernel spells the convolution on a block of `a` rows as two `tpu.matmul`s into zero of bf16 copies of its operands
against transposed bf16 copies of the weights, a bias re-laid `[N] → [1, N] → [a, N]`, and `maximumf` against the zero splat;
the host spells it with `dot_general` against `transpose`d weights, the bias broadcast in two steps and `maximum` against a
broadcast scalar zero. On the extended reals a change of format is the identity and both matrix products are plain sums, so
each spelling is `hid`. Likewise the log-softmax: lane reductions and `[a] → [a, 1] → [a, n]` re-lays in the kernel,
`reduce` and `broadcast_in_dim` on the host (which joins the row maximum with minus infinity once more, a no-op since the
fold already starts there); both are `lsm`.
-/

noncomputable section

namespace Cert.Sage

open Idealize.ShloMosaic Idealize.ShloMosaic.ValueIdx
open Cert.LibDense Cert.LibKeepdims Cert.LibRowFold Cert.LibSoftmaxRows

/-! ## Two ways to write an index -/

theorem ix2_eq_ij {n m : Nat} (p : Fin n) (q : Fin m) :
    (ix2 p q : (⟨2, ![n, m]⟩ : Shape).Idx) = StableHlo.Predicate.ij p q := by
  funext a; match a with | ⟨0, _⟩ => rfl | ⟨1, _⟩ => rfl

theorem ix1_eq_ofFin {n : Nat} (q : Fin n) : (ix1 q : (⟨1, ![n]⟩ : Shape).Idx) = Shape.Idx.ofFin q := by
  funext a; match a with | ⟨0, _⟩ => rfl

theorem ix2_zero_eq_ixP {n : Nat} (p : Fin n) :
    (ix2 p (0 : Fin 1) : (⟨2, ![n, 1]⟩ : Shape).Idx) = StableHlo.Predicate.ixP p := by
  funext a; match a with | ⟨0, _⟩ => rfl | ⟨1, _⟩ => rfl

/-- The fold of `max` from a start is at least the start, so joining it with the start once more changes nothing. -/
theorem max_fold_self {ι : Type} (s : Finset ι) (b : EReal) (f : ι → EReal) : max b (s.fold max b f) = s.fold max b f := by
  classical
  refine max_eq_right ?_
  induction s using Finset.induction_on with
  | empty => simp
  | insert a s ha ih => rw [Finset.fold_insert ha]; exact le_max_of_le_right ih

/-- The logarithm and the exponential of a vector, in a kernel's and in the host's spelling, read at an index. -/
theorem kerLog_apply {s : Shape} (v : FVec Ideal s .f32) (i : s.Idx) : log v i = Ideal.log (v i) := rfl
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- A weight array stored output-major and transposed reads, at `(k, q)`, the stored array at `(q, k)`. -/
theorem wT_apply {K N : Nat} {φ : FTy} (htr : (⟨2, ![N, K]⟩ : Shape).Transposes [1, 0] ⟨2, ![K, N]⟩)
    (W : FVec Ideal (⟨2, ![N, K]⟩ : Shape) φ) (k : Fin K) (q : Fin N) :
    transpose (⟨2, ![K, N]⟩ : Shape) [1, 0] W htr (ix2 k q) = W (ix2 q k) := transpose_ix2_apply W htr k q

/-! ## The hidden layer -/

/-- A kernel's spelling of the layer on a block of `a` rows is `hid`. -/
theorem kerHid_eq (a K N : Nat) (prec : Option ContractPrecision) (ht : FTy.bf16.bits < FTy.f32.bits)
    (htr : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![a, N]⟩)
    (mean x : FVec Ideal (⟨2, ![a, K]⟩ : Shape) .f32) (Wl Wr : FVec Ideal (⟨2, ![N, K]⟩ : Shape) .f32)
    (bl : FVec Ideal (⟨1, ![N]⟩ : Shape) .f32) :
    maximumf
      (addf
        (addf
          (matmul (DotDims.plain a K N) prec (truncf .bf16 mean ht)
            (transpose (⟨2, ![K, N]⟩ : Shape) [1, 0] (truncf .bf16 Wl ht) htr)
            (constant (F := Ideal) (⟨2, ![a, N]⟩ : Shape) .f32 0x00000000#32))
          (broadcastTo (⟨2, ![a, N]⟩ : Shape) (shapeCast (⟨2, ![1, N]⟩ : Shape) bl hc) hb))
        (matmul (DotDims.plain a K N) prec (truncf .bf16 x ht)
          (transpose (⟨2, ![K, N]⟩ : Shape) [1, 0] (truncf .bf16 Wr ht) htr)
          (constant (F := Ideal) (⟨2, ![a, N]⟩ : Shape) .f32 0x00000000#32)))
      (broadcast (⟨2, ![a, N]⟩ : Shape) (Scalar.ofBits (F := Ideal) .f32 0x00000000#32))
    = hid mean x Wl bl Wr := by
  funext i
  obtain ⟨p, q, rfl⟩ : ∃ (p : Fin a) (q : Fin N), i = ix2 p q := ⟨i 0, i 1, eq_ix2 i⟩
  rw [hid_apply, maximumf_apply, addf_apply, addf_apply, matmul_plain_zero_apply, matmul_plain_zero_apply,
    broadcastTo_1b_ab_apply, shapeCast_a_1a_apply]
  simp only [truncf_apply, broadcast_apply]
  have el : ∀ k : Fin K, transpose (⟨2, ![K, N]⟩ : Shape) [1, 0] (truncf .bf16 Wl ht) htr (ix2 k q) = Wl (ix2 q k) :=
    fun k => wT_apply htr (truncf .bf16 Wl ht) k q
  have er : ∀ k : Fin K, transpose (⟨2, ![K, N]⟩ : Shape) [1, 0] (truncf .bf16 Wr ht) htr (ix2 k q) = Wr (ix2 q k) :=
    fun k => wT_apply htr (truncf .bf16 Wr ht) k q
  simp only [el, er]
  show max _ (Ideal.ofBits .f32 0x00000000#32) = _
  rw [Ideal.ofBits_zero_f32]

/-- The host's spelling of the layer on `a` rows is `hid`. -/
theorem hostHid_eq (a K N : Nat) (prec : Option ContractPrecision)
    (htr : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![a, N]⟩ ![0, 1])
    (h₀ : (⟨0, ![]⟩ : Shape).BroadcastsInDim ⟨2, ![a, N]⟩ ![])
    (mean x : FVec Ideal (⟨2, ![a, K]⟩ : Shape) .f32) (Wl Wr : FVec Ideal (⟨2, ![N, K]⟩ : Shape) .f32)
    (bl : FVec Ideal (⟨1, ![N]⟩ : Shape) .f32) :
    maximumf
      (addf
        (addf
          (Host.dotGeneral (DotDims.plain a K N) prec mean (transpose (⟨2, ![K, N]⟩ : Shape) [1, 0] Wl htr))
          (broadcastInDim (⟨2, ![a, N]⟩ : Shape) ![0, 1] h₂ (broadcastInDim (⟨2, ![1, N]⟩ : Shape) ![1] h₁ bl)))
        (Host.dotGeneral (DotDims.plain a K N) prec x (transpose (⟨2, ![K, N]⟩ : Shape) [1, 0] Wr htr)))
      (broadcastInDim (⟨2, ![a, N]⟩ : Shape) ![] h₀ (constant (F := Ideal) (⟨0, ![]⟩ : Shape) .f32 0x00000000#32))
    = hid mean x Wl bl Wr := by
  funext i
  obtain ⟨p, q, rfl⟩ : ∃ (p : Fin a) (q : Fin N), i = ix2 p q := ⟨i 0, i 1, eq_ix2 i⟩
  rw [hid_apply, maximumf_apply, addf_apply, addf_apply, dotGeneral_plain_apply, dotGeneral_plain_apply,
    StableHlo.Predicate.bcast_scalar h₀ (by decide) _ (ix2 p q), constant_apply, Ideal.ofBits_zero_f32]
  have el : ∀ k : Fin K, transpose (⟨2, ![K, N]⟩ : Shape) [1, 0] Wl htr (ix2 k q) = Wl (ix2 q k) :=
    fun k => wT_apply htr Wl k q
  have er : ∀ k : Fin K, transpose (⟨2, ![K, N]⟩ : Shape) [1, 0] Wr htr (ix2 k q) = Wr (ix2 q k) :=
    fun k => wT_apply htr Wr k q
  simp only [el, er]
  rw [ix2_eq_ij p q, StableHlo.Predicate.bcast_cols h₁ h₂ bl p q, ix1_eq_ofFin q]

/-! ## The log-softmax -/

/-- A kernel's spelling of the row-wise log-softmax of a block is `lsm`. -/
theorem kerLsm_eq (a n : Nat) (hr : (⟨2, ![a, n]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (h1 : (⟨1, ![a]⟩ : Shape).ShapeCasts ⟨2, ![a, 1]⟩) (h2 : (⟨2, ![a, 1]⟩ : Shape).Broadcasts ⟨2, ![a, n]⟩)
    (z : FVec Ideal (⟨2, ![a, n]⟩ : Shape) .f32) :
    subf
      (subf z (broadcastTo (⟨2, ![a, n]⟩ : Shape) (shapeCast (⟨2, ![a, 1]⟩ : Shape)
        (multiReduction .maximumf [1] (⟨1, ![a]⟩ : Shape) z 0xFF800000#32 hr hφ hmax) h1) h2))
      (broadcastTo (⟨2, ![a, n]⟩ : Shape) (log (shapeCast (⟨2, ![a, 1]⟩ : Shape)
        (multiReduction .add [1] (⟨1, ![a]⟩ : Shape)
          (exp (subf z (broadcastTo (⟨2, ![a, n]⟩ : Shape) (shapeCast (⟨2, ![a, 1]⟩ : Shape)
            (multiReduction .maximumf [1] (⟨1, ![a]⟩ : Shape) z 0xFF800000#32 hr hφ hmax) h1) h2)))
          0x00000000#32 hr hφ hadd) h1)) h2)
    = lsm z := by
  -- the shifted array at an entry
  have hsh : ∀ (p : Fin a) (k : Fin n),
      subf z (broadcastTo (⟨2, ![a, n]⟩ : Shape) (shapeCast (⟨2, ![a, 1]⟩ : Shape)
        (multiReduction .maximumf [1] (⟨1, ![a]⟩ : Shape) z 0xFF800000#32 hr hφ hmax) h1) h2) (ix2 p k)
      = z (ix2 p k) - rowMax z p := fun p k => by
    rw [subf_apply, keep_apply, rowMax_apply]
    rfl
  funext i
  obtain ⟨p, q, rfl⟩ : ∃ (p : Fin a) (q : Fin n), i = ix2 p q := ⟨i 0, i 1, eq_ix2 i⟩
  rw [lsm_apply, subf_apply, hsh, broadcastTo_a1_ab_apply, kerLog_apply, shapeCast_a_a1_apply, rowSum_apply]
  simp only [Cert.LibSoftmaxRows.exp_apply, hsh]

/-- The host's spelling of the row-wise log-softmax is `lsm`. -/
theorem hostLsm_eq (a n : Nat) (hrt : (⟨2, ![a, n]⟩ : Shape).ReducesTo [1] ⟨1, ![a]⟩)
    (hr : (⟨2, ![a, n]⟩ : Shape).Reduces [1] ⟨1, ![a]⟩) (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, n]⟩ ![0, 1])
    (z : FVec Ideal (⟨2, ![a, n]⟩ : Shape) .f32) :
    subf
      (subf z (broadcastInDim (⟨2, ![a, n]⟩ : Shape) ![0, 1] hb2 (broadcastInDim (⟨2, ![a, 1]⟩ : Shape) ![0] hb1
        (maximumf (broadcastInDim (⟨1, ![a]⟩ : Shape) ![] hb0 (constant (F := Ideal) (⟨0, ![]⟩ : Shape) .f32 0xFF800000#32))
          (Host.reduce FloatOps.maximumf z (constant (F := Ideal) (⟨0, ![]⟩ : Shape) .f32 0xFF800000#32) hrt hu)))))
      (broadcastInDim (⟨2, ![a, n]⟩ : Shape) ![0, 1] hb2 (Host.log (broadcastInDim (⟨2, ![a, 1]⟩ : Shape) ![0] hb1
        (Host.reduceAdd
          (Host.exp (subf z (broadcastInDim (⟨2, ![a, n]⟩ : Shape) ![0, 1] hb2 (broadcastInDim (⟨2, ![a, 1]⟩ : Shape) ![0] hb1
            (maximumf (broadcastInDim (⟨1, ![a]⟩ : Shape) ![] hb0 (constant (F := Ideal) (⟨0, ![]⟩ : Shape) .f32 0xFF800000#32))
              (Host.reduce FloatOps.maximumf z (constant (F := Ideal) (⟨0, ![]⟩ : Shape) .f32 0xFF800000#32) hrt hu))))))
          (constant (F := Ideal) (⟨0, ![]⟩ : Shape) .f32 0x00000000#32) hrt hu))))
    = lsm z := by
  -- the row maximum as the host takes it
  have hmx : ∀ p : Fin a,
      maximumf (broadcastInDim (⟨1, ![a]⟩ : Shape) ![] hb0 (constant (F := Ideal) (⟨0, ![]⟩ : Shape) .f32 0xFF800000#32))
        (Host.reduce FloatOps.maximumf z (constant (F := Ideal) (⟨0, ![]⟩ : Shape) .f32 0xFF800000#32) hrt hu)
        (Shape.Idx.ofFin p) = rowMax z p := fun p => by
    rw [maximumf_apply, StableHlo.Predicate.bcast_scalar hb0 hu, ← ix1_eq_ofFin p, hostRowMax_apply z _ hrt hr hu p]
    exact max_fold_self _ _ _
  -- the shifted array at an entry
  have hsh : ∀ (p : Fin a) (k : Fin n),
      subf z (broadcastInDim (⟨2, ![a, n]⟩ : Shape) ![0, 1] hb2 (broadcastInDim (⟨2, ![a, 1]⟩ : Shape) ![0] hb1
        (maximumf (broadcastInDim (⟨1, ![a]⟩ : Shape) ![] hb0 (constant (F := Ideal) (⟨0, ![]⟩ : Shape) .f32 0xFF800000#32))
          (Host.reduce FloatOps.maximumf z (constant (F := Ideal) (⟨0, ![]⟩ : Shape) .f32 0xFF800000#32) hrt hu))))
        (ix2 p k) = z (ix2 p k) - rowMax z p := fun p k => by
    rw [subf_apply, ix2_eq_ij p k, StableHlo.Predicate.bcast_rows (α := EReal) hb1 hb2 _ p k, hmx p]
  funext i
  obtain ⟨p, q, rfl⟩ : ∃ (p : Fin a) (q : Fin n), i = ix2 p q := ⟨i 0, i 1, eq_ix2 i⟩
  rw [lsm_apply, subf_apply, hsh, ix2_eq_ij p q, StableHlo.Predicate.bcast_of_col hb2 _ p q, hostLog_apply,
    StableHlo.Predicate.bcast_col1 hb1 _ p]
  simp only [Host.reduceAdd, Ideal.hostReduceAdd_def]
  rw [Ideal.hostReduceAdd_single hrt hr]
  rw [constant_apply, Ideal.ofBits_zero_f32, zero_add, ← ix2_eq_ij]
  have e : ∀ k : Fin n, hr.lift (Shape.Idx.ofFin p) k = ix2 p k := fun k => funext fun ax => Fin.ext (by
    match ax with
    | ⟨0, _⟩ => rfl
    | ⟨1, _⟩ => rfl)
  refine congrArg (fun s : EReal => (z (ix2 p q) - rowMax z p : EReal) - Ideal.log s)
    (Finset.sum_congr rfl fun (k : Fin n) _ => ?_)
  rw [e k]
  exact (hostExp_apply _ _).trans (congrArg Ideal.exp (hsh p k))

end Cert.Sage

end
-- ==== Proof.KernelPay.lean ====
import proofs.«181662_j20512763806336_1_alg».proof.Proof.Gen.KernelIdeal.Skeleton
import proofs.«181662_j20512763806336_1_alg».proof.Proof.SageSpec
import Idealize.ShloMosaic.Lib.Pipeline.Value

/-!
# What each kernel body stores, as the layer's formula of the blocks it loads

The first kernel's stored value is its spelling of the hidden layer on the two 5000-row blocks and the whole weights;
the second kernel's is the same spelling (with 64 output columns) followed by its spelling of the row-wise log-softmax.
The identity shape casts at the head of each body drop out.
-/

noncomputable section

namespace Cert.KernelIdeal.Pay

open Idealize.ShloMosaic Idealize.ShloMosaic.ValueIdx Cert.KernelIdeal Cert.KernelIdeal.Gen

/-- The first kernel stores the hidden layer of its blocks: `mean` and `x` blocks of 5000 rows, the weights whole. -/
theorem k0_pay1_eq (mean x : Vec Ideal S5000x128 .f32) (Wl Wr : Vec Ideal S128x128 .f32) (bl : Vec Ideal S128 .f32) :
    k0_pay1 (F := Ideal) mean x Wl Wr bl = Cert.Sage.hid mean x Wl bl Wr := by
  unfold k0_pay1
  dsimp only
  rw [shapeCast_self]
  exact Cert.Sage.kerHid_eq 5000 128 128 none bitsLt_bf16_f32 transposes_S128x128_p1_0_S128x128 shapeCasts_S128_S1x128
    broadcasts_S1x128_S5000x128 mean x Wl Wr bl

/-- The second kernel stores the output layer of its blocks. -/
theorem k1_pay1_eq (mean h : Vec Ideal S5000x128 .f32) (Wl Wr : Vec Ideal S64x128 .f32) (bl : Vec Ideal S64 .f32) :
    k1_pay1 (F := Ideal) mean h Wl Wr bl = Cert.Sage.outl mean h Wl bl Wr := by
  have hh := Cert.Sage.kerHid_eq 5000 128 64 none bitsLt_bf16_f32 transposes_S64x128_p1_0_S128x64 shapeCasts_S64_S1x64
    broadcasts_S1x64_S5000x64 mean h Wl Wr bl
  unfold k1_pay1 Cert.Sage.outl
  dsimp only
  rw [shapeCast_self, shapeCast_self, ← hh]
  exact Cert.Sage.kerLsm_eq 5000 64 reduces_S5000x64_S5000 (.inl rfl) rfl rfl shapeCasts_S5000_S5000x1
    broadcasts_S5000x1_S5000x64 _

end Cert.KernelIdeal.Pay

end
-- ==== Proof.KernelValue.lean ====
import proofs.«181662_j20512763806336_1_alg».proof.Proof.Gen.KernelIdeal.Frame
import proofs.«181662_j20512763806336_1_alg».proof.Proof.SageDefs
import proofs.«181662_j20512763806336_1_alg».proof.Proof.KernelPay
import Idealize.ShloMosaic.Lib.Pipeline.Value
import Idealize.ShloMosaic.Lib.ValueIdx

/-!
# From row blocks to whole arrays

Each of the two kernels runs over ten grid points. Point `t` loads rows `5000 t … 5000 t + 4999` of its two
`50000 × 128` operands and the weights whole, and stores the layer's formula of those blocks as rows
`5000 t … 5000 t + 4999` of the result. Every entry of row `p` of the layer applied to a block is the entry of row
`5000 t + p` of the layer applied to the whole arrays, because a row of the result depends on the same row of the
operands only; and the ten blocks tile the `50000` rows (row `r` lies in block `r / 5000`). So after the ten
write-backs the result array is the layer's formula of the whole arrays.
-/

set_option maxRecDepth 16384

noncomputable section

namespace Cert.KernelIdeal.BlockV

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a rank-2 access that starts at the origin. -/
theorem origin2 : (![0, 0] : Fin 2 → Nat) = fun _ => 0 := funext fun a => by fin_cases a <;> rfl
/-- The zero offset of a rank-1 access that starts at the origin. -/
theorem origin1 : (![0] : Fin 1 → Nat) = fun _ => 0 := funext fun a => by fin_cases a; rfl

/-! ## Row `p` of a block's layer is row `5000 n + p` of the whole arrays' layer -/

/-- The hidden layer of two row blocks, when block row `p` is row `5000 n + p` of the whole operands. -/
theorem hid_of_rows {N : Nat} (A0 A1 : Cert.Sage.Mat 50000 128) (x0 x1 : Cert.Sage.Mat 5000 128)
    (Wl : Cert.Sage.Mat N 128) (bl : Cert.Sage.Row N) (Wr : Cert.Sage.Mat N 128) (n : Nat)
    (h0 : ∀ (j : (⟨2, ![5000, 128]⟩ : Shape).Idx) (k : (⟨2, ![50000, 128]⟩ : Shape).Idx),
      (k 0).val = 5000 * n + (j 0).val → (k 1).val = (j 1).val → x0 j = A0 k)
    (h1 : ∀ (j : (⟨2, ![5000, 128]⟩ : Shape).Idx) (k : (⟨2, ![50000, 128]⟩ : Shape).Idx),
      (k 0).val = 5000 * n + (j 0).val → (k 1).val = (j 1).val → x1 j = A1 k)
    (j : (⟨2, ![5000, N]⟩ : Shape).Idx) (i : (⟨2, ![50000, N]⟩ : Shape).Idx)
    (hi0 : (i 0).val = 5000 * n + (j 0).val) (hi1 : (i 1).val = (j 1).val) :
    Cert.Sage.hid x0 x1 Wl bl Wr j = Cert.Sage.hid A0 A1 Wl bl Wr i := by
  obtain ⟨p, q, rfl⟩ : ∃ (p : Fin 5000) (q : Fin N), j = ix2 p q := ⟨j 0, j 1, eq_ix2 j⟩
  obtain ⟨r, q', rfl⟩ : ∃ (r : Fin 50000) (q' : Fin N), i = ix2 r q' := ⟨i 0, i 1, eq_ix2 i⟩
  obtain rfl : q' = q := Fin.ext hi1
  exact Cert.Sage.hid_rows x0 x1 A0 A1 Wl bl Wr p r (fun k => h0 (ix2 p k) (ix2 r k) hi0 rfl)
    (fun k => h1 (ix2 p k) (ix2 r k) hi0 rfl) q'

/-- The output layer of two row blocks, when block row `p` is row `5000 n + p` of the whole operands. -/
theorem outl_of_rows {N : Nat} (A0 A1 : Cert.Sage.Mat 50000 128) (x0 x1 : Cert.Sage.Mat 5000 128)
    (Wl : Cert.Sage.Mat N 128) (bl : Cert.Sage.Row N) (Wr : Cert.Sage.Mat N 128) (n : Nat)
    (h0 : ∀ (j : (⟨2, ![5000, 128]⟩ : Shape).Idx) (k : (⟨2, ![50000, 128]⟩ : Shape).Idx),
      (k 0).val = 5000 * n + (j 0).val → (k 1).val = (j 1).val → x0 j = A0 k)
    (h1 : ∀ (j : (⟨2, ![5000, 128]⟩ : Shape).Idx) (k : (⟨2, ![50000, 128]⟩ : Shape).Idx),
      (k 0).val = 5000 * n + (j 0).val → (k 1).val = (j 1).val → x1 j = A1 k)
    (j : (⟨2, ![5000, N]⟩ : Shape).Idx) (i : (⟨2, ![50000, N]⟩ : Shape).Idx)
    (hi0 : (i 0).val = 5000 * n + (j 0).val) (hi1 : (i 1).val = (j 1).val) :
    Cert.Sage.outl x0 x1 Wl bl Wr j = Cert.Sage.outl A0 A1 Wl bl Wr i := by
  obtain ⟨p, q, rfl⟩ : ∃ (p : Fin 5000) (q : Fin N), j = ix2 p q := ⟨j 0, j 1, eq_ix2 j⟩
  obtain ⟨r, q', rfl⟩ : ∃ (r : Fin 50000) (q' : Fin N), i = ix2 r q' := ⟨i 0, i 1, eq_ix2 i⟩
  obtain rfl : q' = q := Fin.ext hi1
  exact Cert.Sage.outl_rows x0 x1 A0 A1 Wl bl Wr p r (fun k => h0 (ix2 p k) (ix2 r k) hi0 rfl)
    (fun k => h1 (ix2 p k) (ix2 r k) hi0 rfl) q'

/-! # The first kernel: the hidden layer -/

/-- The printed index maps over the ten points: the two row-blocked operands and the result move to row block `t`,
    the weights stay at block zero. -/
theorem rowIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the body stores is the hidden layer of the blocks it loads. -/
theorem out0_5_eq (x0 x1 : Vec Ideal S5000x128 .f32) (x2 : Vec Ideal S128x128 .f32) (x3 : Vec Ideal S128 .f32)
    (x4 : Vec Ideal S128x128 .f32) : out0_5 (F := Ideal) x0 x1 x2 x3 x4 = Cert.Sage.hid x0 x1 x2 x3 x4 := by
  unfold out0_5
  rw [View.canon_unit_zero origin2]
  simp only [View.ld_unit_zero (S := S5000x128) origin2, View.ld_unit_zero (S := S128x128) origin2,
    View.ld_unit_zero (S := S128) origin1]
  exact Pay.k0_pay1_eq x0 x1 x2 x4 x3

/-- The aggregated-feature block at point `t` is rows `5000 t … 5000 t + 4999` of its array. -/
theorem mean0_read (c : Dev nD) (t : Fin cfg0.N) (x : S5000x128.Idx) (k : S50000x128.Idx)
    (hk0 : (k 0).val = 5000 * t.val + (x 0).val) (hk1 : (k 1).val = (x 1).val) :
    (iblk0 (F := Ideal) V c 0 t : Vec Ideal S5000x128 .f32) x = (V c main_v22 : S50000x128.Idx → Elt Ideal .f32) k := by
  obtain ⟨e0, e1, -⟩ := rowIdx0 t
  unfold iblk0
  rw [View.read_apply]
  show V c main_v22 _ = V c main_v22 _
  congr 1
  funext a
  apply Fin.ext
  match a with
  | ⟨0, _⟩ => show win0_0.index t (0 : Fin 2) * 5000 + 1 * (x 0).val = (k 0).val; omega
  | ⟨1, _⟩ => show win0_0.index t (1 : Fin 2) * 128 + 1 * (x 1).val = (k 1).val; omega

/-- The root-feature block at point `t` is rows `5000 t … 5000 t + 4999` of its array. -/
theorem root0_read (c : Dev nD) (t : Fin cfg0.N) (x : S5000x128.Idx) (k : S50000x128.Idx)
    (hk0 : (k 0).val = 5000 * t.val + (x 0).val) (hk1 : (k 1).val = (x 1).val) :
    (iblk0 (F := Ideal) V c 1 t : Vec Ideal S5000x128 .f32) x = (V c main_arg0 : S50000x128.Idx → Elt Ideal .f32) k := by
  obtain ⟨-, -, e0, e1, -⟩ := rowIdx0 t
  unfold iblk0
  rw [View.read_apply]
  show V c main_arg0 _ = V c main_arg0 _
  congr 1
  funext a
  apply Fin.ext
  match a with
  | ⟨0, _⟩ => show win0_1.index t (0 : Fin 2) * 5000 + 1 * (x 0).val = (k 0).val; omega
  | ⟨1, _⟩ => show win0_1.index t (1 : Fin 2) * 128 + 1 * (x 1).val = (k 1).val; omega

/-- The neighbour weights are loaded whole at every point. -/
theorem wl0_read (c : Dev nD) (t : Fin cfg0.N) :
    (iblk0 (F := Ideal) V c 2 t : Vec Ideal S128x128 .f32) = (V c main_arg2 : S128x128.Idx → Elt Ideal .f32) := by
  obtain ⟨-, -, -, -, e0, e1, -⟩ := rowIdx0 t
  funext x
  unfold iblk0
  rw [View.read_apply]
  show V c main_arg2 _ = V c main_arg2 _
  congr 1
  funext a
  apply Fin.ext
  match a with
  | ⟨0, _⟩ => show win0_2.index t (0 : Fin 2) * 128 + 1 * (x 0).val = (x 0).val; omega
  | ⟨1, _⟩ => show win0_2.index t (1 : Fin 2) * 128 + 1 * (x 1).val = (x 1).val; omega

/-- The bias is loaded whole at every point. -/
theorem bl0_read (c : Dev nD) (t : Fin cfg0.N) :
    (iblk0 (F := Ideal) V c 3 t : Vec Ideal S128 .f32) = (V c main_arg3 : S128.Idx → Elt Ideal .f32) := by
  obtain ⟨-, -, -, -, -, -, e0, -⟩ := rowIdx0 t
  funext x
  unfold iblk0
  rw [View.read_apply]
  show V c main_arg3 _ = V c main_arg3 _
  congr 1
  funext a
  apply Fin.ext
  match a with
  | ⟨0, _⟩ => show win0_3.index t (0 : Fin 1) * 128 + 1 * (x 0).val = (x 0).val; omega

/-- The root weights are loaded whole at every point. -/
theorem wr0_read (c : Dev nD) (t : Fin cfg0.N) :
    (iblk0 (F := Ideal) V c 4 t : Vec Ideal S128x128 .f32) = (V c main_arg4 : S128x128.Idx → Elt Ideal .f32) := by
  obtain ⟨-, -, -, -, -, -, -, e0, e1, -⟩ := rowIdx0 t
  funext x
  unfold iblk0
  rw [View.read_apply]
  show V c main_arg4 _ = V c main_arg4 _
  congr 1
  funext a
  apply Fin.ext
  match a with
  | ⟨0, _⟩ => show win0_4.index t (0 : Fin 2) * 128 + 1 * (x 0).val = (x 0).val; omega
  | ⟨1, _⟩ => show win0_4.index t (1 : Fin 2) * 128 + 1 * (x 1).val = (x 1).val; omega

/-- What point `t` writes back is rows `5000 t … 5000 t + 4999` of the hidden layer of the whole arrays. -/
theorem flushed0_eq (c : Dev nD) (t : Fin cfg0.N) :
    (dat0 (F := Ideal) V c).flushed 5 t = ((cfg0.win 5).blk t).view.read (Elt Ideal)
      (Cert.Sage.hid (V c main_v22) (V c main_arg0) (V c main_arg2) (V c main_arg3) (V c main_arg4)) := by
  show (cfg0.win 5).cut (grid0.coords t) ((dat0 V c).after 5 t) = _
  rw [after0_5, out0_5_eq (iblk0 V c 0 t) (iblk0 V c 1 t) (iblk0 V c 2 t) (iblk0 V c 3 t) (iblk0 V c 4 t),
    wl0_read, bl0_read, wr0_read]
  obtain ⟨-, -, -, -, -, -, -, -, -, e0, e1⟩ := rowIdx0 t
  funext j
  show Cert.Sage.hid (iblk0 V c 0 t) (iblk0 V c 1 t) (V c main_arg2) (V c main_arg3) (V c main_arg4) j
    = Cert.Sage.hid (V c main_v22) (V c main_arg0) (V c main_arg2) (V c main_arg3) (V c main_arg4)
        (((cfg0.win 5).blk t).view.emb j)
  refine hid_of_rows (V c main_v22) (V c main_arg0) (iblk0 V c 0 t) (iblk0 V c 1 t) (V c main_arg2) (V c main_arg3)
    (V c main_arg4) t.val (fun x k h0 h1 => mean0_read V c t x k h0 h1) (fun x k h0 h1 => root0_read V c t x k h0 h1)
    j _ ?_ ?_
  · show win0_5.index t (0 : Fin 2) * 5000 + 1 * (j 0).val = 5000 * t.val + (j 0).val; omega
  · show win0_5.index t (1 : Fin 2) * 128 + 1 * (j 1).val = (j 1).val; omega

/-- An index of the result array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v23).slice (win0_5.rect t)).set ↔ _
  rw [View.set_slice_whole, Rect.mem_set_unit]
  exact Iff.rfl

/-- The ten row blocks tile the result array: row `r` lies in the block of point `r / 5000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, e0, e1⟩ := rowIdx0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the ten write-backs the first kernel's result array is the hidden layer of the whole arrays. -/
theorem final0 (c : Dev nD) : (dat0 (F := Ideal) V c).arrAt 5 cfg0.N
    = Cert.Sage.hid (V c main_v22) (V c main_arg0) (V c main_arg2) (V c main_arg3) (V c main_arg4) :=
  (dat0 (F := Ideal) V c).arrAt_eq_of_cover 5
    (Cert.Sage.hid (V c main_v22) (V c main_arg0) (V c main_arg2) (V c main_arg3) (V c main_arg4))
    (fun t _ => flushed0_eq V c t) cover0

/-! # The second kernel: the output layer -/

/-- The printed index maps over the ten points: the two row-blocked operands and the result move to row block `t`,
    the weights stay at block zero. -/
theorem rowIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the body stores is the output layer of the blocks it loads. -/
theorem out1_5_eq (x0 x1 : Vec Ideal S5000x128 .f32) (x2 : Vec Ideal S64x128 .f32) (x3 : Vec Ideal S64 .f32)
    (x4 : Vec Ideal S64x128 .f32) : out1_5 (F := Ideal) x0 x1 x2 x3 x4 = Cert.Sage.outl x0 x1 x2 x3 x4 := by
  unfold out1_5
  rw [View.canon_unit_zero origin2]
  simp only [View.ld_unit_zero (S := S5000x128) origin2, View.ld_unit_zero (S := S64x128) origin2,
    View.ld_unit_zero (S := S64) origin1]
  exact Pay.k1_pay1_eq x0 x1 x2 x4 x3

/-- The aggregated-feature block at point `t` is rows `5000 t … 5000 t + 4999` of its array. -/
theorem mean1_read (c : Dev nD) (t : Fin cfg1.N) (x : S5000x128.Idx) (k : S50000x128.Idx)
    (hk0 : (k 0).val = 5000 * t.val + (x 0).val) (hk1 : (k 1).val = (x 1).val) :
    (iblk1 (F := Ideal) V c 0 t : Vec Ideal S5000x128 .f32) x = (V c main_v42 : S50000x128.Idx → Elt Ideal .f32) k := by
  obtain ⟨e0, e1, -⟩ := rowIdx1 t
  unfold iblk1
  rw [View.read_apply]
  show V c main_v42 _ = V c main_v42 _
  congr 1
  funext a
  apply Fin.ext
  match a with
  | ⟨0, _⟩ => show win1_0.index t (0 : Fin 2) * 5000 + 1 * (x 0).val = (k 0).val; omega
  | ⟨1, _⟩ => show win1_0.index t (1 : Fin 2) * 128 + 1 * (x 1).val = (k 1).val; omega

/-- The hidden-feature block at point `t` is rows `5000 t … 5000 t + 4999` of its array. -/
theorem root1_read (c : Dev nD) (t : Fin cfg1.N) (x : S5000x128.Idx) (k : S50000x128.Idx)
    (hk0 : (k 0).val = 5000 * t.val + (x 0).val) (hk1 : (k 1).val = (x 1).val) :
    (iblk1 (F := Ideal) V c 1 t : Vec Ideal S5000x128 .f32) x = (V c main_v23 : S50000x128.Idx → Elt Ideal .f32) k := by
  obtain ⟨-, -, e0, e1, -⟩ := rowIdx1 t
  unfold iblk1
  rw [View.read_apply]
  show V c main_v23 _ = V c main_v23 _
  congr 1
  funext a
  apply Fin.ext
  match a with
  | ⟨0, _⟩ => show win1_1.index t (0 : Fin 2) * 5000 + 1 * (x 0).val = (k 0).val; omega
  | ⟨1, _⟩ => show win1_1.index t (1 : Fin 2) * 128 + 1 * (x 1).val = (k 1).val; omega

/-- The neighbour weights are loaded whole at every point. -/
theorem wl1_read (c : Dev nD) (t : Fin cfg1.N) :
    (iblk1 (F := Ideal) V c 2 t : Vec Ideal S64x128 .f32) = (V c main_arg5 : S64x128.Idx → Elt Ideal .f32) := by
  obtain ⟨-, -, -, -, e0, e1, -⟩ := rowIdx1 t
  funext x
  unfold iblk1
  rw [View.read_apply]
  show V c main_arg5 _ = V c main_arg5 _
  congr 1
  funext a
  apply Fin.ext
  match a with
  | ⟨0, _⟩ => show win1_2.index t (0 : Fin 2) * 64 + 1 * (x 0).val = (x 0).val; omega
  | ⟨1, _⟩ => show win1_2.index t (1 : Fin 2) * 128 + 1 * (x 1).val = (x 1).val; omega

/-- The bias is loaded whole at every point. -/
theorem bl1_read (c : Dev nD) (t : Fin cfg1.N) :
    (iblk1 (F := Ideal) V c 3 t : Vec Ideal S64 .f32) = (V c main_arg6 : S64.Idx → Elt Ideal .f32) := by
  obtain ⟨-, -, -, -, -, -, e0, -⟩ := rowIdx1 t
  funext x
  unfold iblk1
  rw [View.read_apply]
  show V c main_arg6 _ = V c main_arg6 _
  congr 1
  funext a
  apply Fin.ext
  match a with
  | ⟨0, _⟩ => show win1_3.index t (0 : Fin 1) * 64 + 1 * (x 0).val = (x 0).val; omega

/-- The root weights are loaded whole at every point. -/
theorem wr1_read (c : Dev nD) (t : Fin cfg1.N) :
    (iblk1 (F := Ideal) V c 4 t : Vec Ideal S64x128 .f32) = (V c main_arg7 : S64x128.Idx → Elt Ideal .f32) := by
  obtain ⟨-, -, -, -, -, -, -, e0, e1, -⟩ := rowIdx1 t
  funext x
  unfold iblk1
  rw [View.read_apply]
  show V c main_arg7 _ = V c main_arg7 _
  congr 1
  funext a
  apply Fin.ext
  match a with
  | ⟨0, _⟩ => show win1_4.index t (0 : Fin 2) * 64 + 1 * (x 0).val = (x 0).val; omega
  | ⟨1, _⟩ => show win1_4.index t (1 : Fin 2) * 128 + 1 * (x 1).val = (x 1).val; omega

/-- What point `t` writes back is rows `5000 t … 5000 t + 4999` of the output layer of the whole arrays. -/
theorem flushed1_eq (c : Dev nD) (t : Fin cfg1.N) :
    (dat1 (F := Ideal) V c).flushed 5 t = ((cfg1.win 5).blk t).view.read (Elt Ideal)
      (Cert.Sage.outl (V c main_v42) (V c main_v23) (V c main_arg5) (V c main_arg6) (V c main_arg7)) := by
  show (cfg1.win 5).cut (grid1.coords t) ((dat1 V c).after 5 t) = _
  rw [after1_5, out1_5_eq (iblk1 V c 0 t) (iblk1 V c 1 t) (iblk1 V c 2 t) (iblk1 V c 3 t) (iblk1 V c 4 t),
    wl1_read, bl1_read, wr1_read]
  obtain ⟨-, -, -, -, -, -, -, -, -, e0, e1⟩ := rowIdx1 t
  funext j
  show Cert.Sage.outl (iblk1 V c 0 t) (iblk1 V c 1 t) (V c main_arg5) (V c main_arg6) (V c main_arg7) j
    = Cert.Sage.outl (V c main_v42) (V c main_v23) (V c main_arg5) (V c main_arg6) (V c main_arg7)
        (((cfg1.win 5).blk t).view.emb j)
  refine outl_of_rows (V c main_v42) (V c main_v23) (iblk1 V c 0 t) (iblk1 V c 1 t) (V c main_arg5) (V c main_arg6)
    (V c main_arg7) t.val (fun x k h0 h1 => mean1_read V c t x k h0 h1) (fun x k h0 h1 => root1_read V c t x k h0 h1)
    j _ ?_ ?_
  · show win1_5.index t (0 : Fin 2) * 5000 + 1 * (j 0).val = 5000 * t.val + (j 0).val; omega
  · show win1_5.index t (1 : Fin 2) * 64 + 1 * (j 1).val = (j 1).val; omega

/-- An index of the result array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v43).slice (win1_5.rect t)).set ↔ _
  rw [View.set_slice_whole, Rect.mem_set_unit]
  exact Iff.rfl

/-- The ten row blocks tile the result array: row `r` lies in the block of point `r / 5000`. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, -, -, -, e0, e1⟩ := rowIdx1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the ten write-backs the second kernel's result array is the output layer of the whole arrays. -/
theorem final1 (c : Dev nD) : (dat1 (F := Ideal) V c).arrAt 5 cfg1.N
    = Cert.Sage.outl (V c main_v42) (V c main_v23) (V c main_arg5) (V c main_arg6) (V c main_arg7) :=
  (dat1 (F := Ideal) V c).arrAt_eq_of_cover 5
    (Cert.Sage.outl (V c main_v42) (V c main_v23) (V c main_arg5) (V c main_arg6) (V c main_arg7))
    (fun t _ => flushed1_eq V c t) cover1

end Cert.KernelIdeal.BlockV

end
-- ==== Proof.SageNet.lean ====
import proofs.«181662_j20512763806336_1_alg».proof.Proof.SageDefs
import proofs.«181662_j20512763806336_1_alg».proof.Proof.SegMean

/-!
# The two-layer network as one function of the program's arguments

The hidden layer of the aggregated features and the features; then the output layer (layer formula and row-wise
log-softmax) of the aggregated hidden layer and the hidden layer. Both programs compute this array.
-/

noncomputable section

namespace Cert.Sage

open Idealize.ShloMosaic Cert.KernelIdeal

/-- The network's result from the features `x`, the edge array `e` and the two layers' weights and biases. -/
def twoLayer (x : Mat 50000 128) (e : (⟨S2x800000, .i32⟩ : BufTy).Contents (Elt Ideal))
    (Wl1 : Mat 128 128) (bl1 : Row 128) (Wr1 : Mat 128 128) (Wl2 : Mat 64 128) (bl2 : Row 64) (Wr2 : Mat 64 128) :
    Mat 50000 64 :=
  outl (segMeanOf (F := Ideal) (hid (segMeanOf (F := Ideal) x (srcOf e) (dstOf e)) x Wl1 bl1 Wr1) (srcOf e) (dstOf e))
    (hid (segMeanOf (F := Ideal) x (srcOf e) (dstOf e)) x Wl1 bl1 Wr1) Wl2 bl2 Wr2

end Cert.Sage

end
-- ==== Proof.KernelResult.lean ====
import proofs.«181662_j20512763806336_1_alg».proof.Proof.KernelHost
import proofs.«181662_j20512763806336_1_alg».proof.Proof.KernelValue
import proofs.«181662_j20512763806336_1_alg».proof.Proof.SageNet

/-!
# The kernel program's result array

At the second region's exit the result buffer holds the output layer of that region's entry arrays; those are the
aggregation of the first region's output and that output itself, and the first region's output is the hidden layer of
the aggregated features and the features. Composed: the two-layer network of the launch arguments.
-/

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result buffer after the run is the two-layer network of the launch arguments. -/
theorem result_eq (c : Dev nD) :
    W4 m ρ c (Proc.devRef .tc main_v43)
      = Cert.Sage.twoLayer (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [HostV.W4_out, BlockV.final1 (V3 m ρ) c, HostV.V3_mean, HostV.V3_h, HostV.V3_arg5, HostV.V3_arg6, HostV.V3_arg7,
    HostV.W2_h, BlockV.final0 (V1 m ρ) c, HostV.V1_mean, HostV.V1_arg0, HostV.V1_arg2, HostV.V1_arg3, HostV.V1_arg4]
  rfl

end Cert.KernelIdeal.Result

end
-- ==== Proof.RefStages.lean ====
import proofs.«181662_j20512763806336_1_alg».proof.Proof.RefRun
import proofs.«181662_j20512763806336_1_alg».proof.Proof.SageSpec
import proofs.«181662_j20512763806336_1_alg».proof.Proof.SageNet

/-!
# The reference's result, read off its operations stretch by stretch

The reference's 91 operations fall into five stretches: the index vectors, the first aggregation and the first
convolution; `max · 0` of it; the second aggregation and convolution, of that hidden layer; `max · 0` again; the
row-wise log-softmax. Each stretch's result is read from ANY contents `V` of the buffers it reads, as the host's spelling
of one stage applied to those contents; composed along the list, and with each spelling equal to its entry-by-entry
formula on the extended reals, the result buffer ends at the two-layer network of the launch arguments.
-/

set_option maxRecDepth 16384

noncomputable section

namespace Cert.ReferenceIdeal.Stages

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-! ## The stretches -/

/-- The first 37 operations: the two index vectors, the first aggregation and the first layer's convolution. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)) ]

/-- The next 3: `max · 0` of the first convolution (the inlined @relu). -/
abbrev opsR0 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v30) (TRef.of (T := ⟨S50000x128, .f32⟩) main_call0_v0) (TRef.of (T := ⟨S50000x128, .f32⟩) main_v31) maximumf ]

/-- The next 33: the second aggregation and the second layer's convolution. -/
abbrev opsB : List (HloOp τ sig (Elt F)) :=
  [ nullary main_c_4 (constantI S_ 32 0#32),
    unary main_c_4 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v39 (broadcastInDim S50000x128 ![] bcast_S_S50000x128 : (⟨S_, .f32⟩ : BufTy).Contents (Elt F) → (⟨S50000x128, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v42 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v43 (broadcastInDim S50000 ![] bcast_S_S50000 : (⟨S_, .f32⟩ : BufTy).Contents (Elt F) → (⟨S50000, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v46 (broadcastInDim S50000 ![] bcast_S_S50000 : (⟨S_, .f32⟩ : BufTy).Contents (Elt F) → (⟨S50000, .f32⟩ : BufTy).Contents (Elt F)),
    binary main_v45 main_v46 main_v47 (maximumf : (⟨S50000, .f32⟩ : BufTy).Contents (Elt F) → (⟨S50000, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x128 ![0, 1] bcast_S50000x1_S50000x128_0_1 : (⟨S50000x1, .f32⟩ : BufTy).Contents (Elt F) → (⟨S50000x128, .f32⟩ : BufTy).Contents (Elt F)),
    binary main_v41 main_v49 main_v50 (Host.divf : (⟨S50000x128, .f32⟩ : BufTy).Contents (Elt F) → (⟨S50000x128, .f32⟩ : BufTy).Contents (Elt F) → (⟨S50000x128, .f32⟩ : BufTy).Contents (Elt F)),
    unary main_arg5 main_v51 ((transpose S128x64 [1, 0] · transposes_S64x128_S128x64_1_0) : (⟨S64x128, .f32⟩ : BufTy).Contents (Elt F) → (⟨S128x64, .f32⟩ : BufTy).Contents (Elt F)),
    binary main_v50 main_v51 main_v52 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v53 (broadcastInDim S1x64 ![1] bcast_S64_S1x64_1 : (⟨S64, .f32⟩ : BufTy).Contents (Elt F) → (⟨S1x64, .f32⟩ : BufTy).Contents (Elt F)),
    unary main_v53 main_v54 (broadcastInDim S50000x64 ![0, 1] bcast_S1x64_S50000x64_0_1 : (⟨S1x64, .f32⟩ : BufTy).Contents (Elt F) → (⟨S50000x64, .f32⟩ : BufTy).Contents (Elt F)),
    binary main_v52 main_v54 main_v55 (addf : (⟨S50000x64, .f32⟩ : BufTy).Contents (Elt F) → (⟨S50000x64, .f32⟩ : BufTy).Contents (Elt F) → (⟨S50000x64, .f32⟩ : BufTy).Contents (Elt F)),
    unary main_arg7 main_v56 ((transpose S128x64 [1, 0] · transposes_S64x128_S128x64_1_0) : (⟨S64x128, .f32⟩ : BufTy).Contents (Elt F) → (⟨S128x64, .f32⟩ : BufTy).Contents (Elt F)),
    binary main_v31 main_v56 main_v57 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v55 main_v57 main_v58 (addf : (⟨S50000x64, .f32⟩ : BufTy).Contents (Elt F) → (⟨S50000x64, .f32⟩ : BufTy).Contents (Elt F) → (⟨S50000x64, .f32⟩ : BufTy).Contents (Elt F)) ]

/-- The next 3: `max · 0` of the second convolution (the inlined @relu_0). -/
abbrev opsR1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v58) (TRef.of (T := ⟨S50000x64, .f32⟩) main_call1_v0) (TRef.of (T := ⟨S50000x64, .f32⟩) main_v59) maximumf ]

/-- The last 15: the row-wise log-softmax (the inlined @log_softmax). -/
abbrev opsL : List (HloOp τ sig (Elt F)) :=
  [ TRef.nullary (TRef.of (T := ⟨S_, .f32⟩) main_call2_cst) (constant S_ .f32 0xFF800000#32),
    TRef.binary (TRef.of (T := ⟨S50000x64, .f32⟩) main_v59) (TRef.of (T := ⟨S_, .f32⟩) main_call2_cst) (TRef.of (T := ⟨S50000, .f32⟩) main_call2_v0) (fun x v => Host.reduce FloatOps.maximumf x v reducesTo_S50000x64_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v59) (TRef.of (T := ⟨S50000x64, .f32⟩) main_call2_v4) (TRef.of (T := ⟨S50000x64, .f32⟩) main_call2_v5) subf,
    TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v60) subf ]

/-- The operation list is the five stretches in order. -/
theorem ops_split : (ops : List (HloOp τ sig (Elt F))) = opsA ++ (opsR0 ++ (opsB ++ (opsR1 ++ opsL))) := rfl

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The host's spelling of each stage -/

/-- Row 0 of the edge array, flattened. -/
def srcH (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge array, flattened. -/
def dstH (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The aggregation chain as the reference's operations spell it. -/
def meanH (x : (⟨S50000x128, .f32⟩ : BufTy).Contents (Elt F)) (src dst : (⟨S800000, .i32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- The first layer's convolution as the host spells it. -/
def conv1H (x : (⟨S50000x128, .f32⟩ : BufTy).Contents (Elt F)) (src dst : (⟨S800000, .i32⟩ : BufTy).Contents (Elt F)) (Wl : (⟨S128x128, .f32⟩ : BufTy).Contents (Elt F)) (bl : (⟨S128, .f32⟩ : BufTy).Contents (Elt F))
    (Wr : (⟨S128x128, .f32⟩ : BufTy).Contents (Elt F)) : (⟨S50000x128, .f32⟩ : BufTy).Contents (Elt F) :=
  addf
    (addf
      (Host.dotGeneral dot_S50000x128_S128x128_S50000x128_1_0_0_1_n_n none (meanH x src dst)
        (transpose S128x128 [1, 0] Wl transposes_S128x128_S128x128_1_0))
      (broadcastInDim S50000x128 ![0, 1] bcast_S1x128_S50000x128_0_1 (broadcastInDim S1x128 ![1] bcast_S128_S1x128_1 bl)))
    (Host.dotGeneral dot_S50000x128_S128x128_S50000x128_1_0_0_1_n_n none x
      (transpose S128x128 [1, 0] Wr transposes_S128x128_S128x128_1_0))

/-- `max · 0` on 128 columns as the host spells it. -/
def relu1H (z : (⟨S50000x128, .f32⟩ : BufTy).Contents (Elt F)) : (⟨S50000x128, .f32⟩ : BufTy).Contents (Elt F) :=
  maximumf z (broadcastInDim S50000x128 ![] bcast_S_S50000x128 (constant S_ .f32 0x00000000#32))

/-- The second layer's convolution as the host spells it. -/
def conv2H (h : (⟨S50000x128, .f32⟩ : BufTy).Contents (Elt F)) (src dst : (⟨S800000, .i32⟩ : BufTy).Contents (Elt F)) (Wl : (⟨S64x128, .f32⟩ : BufTy).Contents (Elt F)) (bl : (⟨S64, .f32⟩ : BufTy).Contents (Elt F))
    (Wr : (⟨S64x128, .f32⟩ : BufTy).Contents (Elt F)) : (⟨S50000x64, .f32⟩ : BufTy).Contents (Elt F) :=
  addf
    (addf
      (Host.dotGeneral dot_S50000x128_S128x64_S50000x64_1_0_0_1_n_n none (meanH h src dst)
        (transpose S128x64 [1, 0] Wl transposes_S64x128_S128x64_1_0))
      (broadcastInDim S50000x64 ![0, 1] bcast_S1x64_S50000x64_0_1 (broadcastInDim S1x64 ![1] bcast_S64_S1x64_1 bl)))
    (Host.dotGeneral dot_S50000x128_S128x64_S50000x64_1_0_0_1_n_n none h
      (transpose S128x64 [1, 0] Wr transposes_S64x128_S128x64_1_0))

/-- `max · 0` on 64 columns as the host spells it. -/
def relu2H (z : (⟨S50000x64, .f32⟩ : BufTy).Contents (Elt F)) : (⟨S50000x64, .f32⟩ : BufTy).Contents (Elt F) :=
  maximumf z (broadcastInDim S50000x64 ![] bcast_S_S50000x64 (constant S_ .f32 0x00000000#32))

/-- The row maxima re-laid over the rows, as the host spells them. -/
def maxH (z : (⟨S50000x64, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0
    (maximumf (broadcastInDim S50000 ![] bcast_S_S50000 (constant S_ .f32 0xFF800000#32))
      (Host.reduce FloatOps.maximumf z (constant S_ .f32 0xFF800000#32) reducesTo_S50000x64_S50000_d1 h_S_)))

/-- The row-wise log-softmax as the host spells it. -/
def lsmH (z : (⟨S50000x64, .f32⟩ : BufTy).Contents (Elt F)) : (⟨S50000x64, .f32⟩ : BufTy).Contents (Elt F) :=
  subf (subf z (maxH z))
    (broadcastInDim S50000x64 ![0, 1] bcast_S50000x1_S50000x64_0_1 (Host.log (broadcastInDim S50000x1 ![0] bcast_S50000_S50000x1_0
      (Host.reduceAdd (Host.exp (subf z (maxH z))) (constant S_ .f32 0x00000000#32) reducesTo_S50000x64_S50000_d1 h_S_))))

/-! ## Each stretch's results, from any contents -/

section Stretches
variable (V : Valuation τ sig (Elt F))

/-- A value written to a buffer of its own type and read back is itself. -/
theorem ofBuf_toBuf {T : BufTy} (x : TRef sig T) (v : T.Contents (Elt F)) : x.ofBuf (x.toBuf v) = v := by
  obtain ⟨r, h, _, _⟩ := x
  subst h
  rfl

set_option maxHeartbeats 2000000 in
/-- After the first stretch the first convolution sits in `main_v30`. -/
theorem A_conv : after opsA V (Proc.devRef .tc main_v30)
    = conv1H (V (Proc.devRef .tc main_arg0)) (srcH (V (Proc.devRef .tc main_arg1))) (dstH (V (Proc.devRef .tc main_arg1)))
        (V (Proc.devRef .tc main_arg2)) (V (Proc.devRef .tc main_arg3)) (V (Proc.devRef .tc main_arg4)) := by
  after_results_simp
  rfl

set_option maxHeartbeats 2000000 in
theorem A_src : after opsA V (Proc.devRef .tc main_v1) = srcH (V (Proc.devRef .tc main_arg1)) := by
  after_results_simp
  rfl

set_option maxHeartbeats 2000000 in
theorem A_dst : after opsA V (Proc.devRef .tc main_v3) = dstH (V (Proc.devRef .tc main_arg1)) := by
  after_results_simp
  rfl

set_option maxHeartbeats 2000000 in
theorem A_arg5 : after opsA V (Proc.devRef .tc main_arg5) = V (Proc.devRef .tc main_arg5) := by after_results_simp
set_option maxHeartbeats 2000000 in
theorem A_arg6 : after opsA V (Proc.devRef .tc main_arg6) = V (Proc.devRef .tc main_arg6) := by after_results_simp
set_option maxHeartbeats 2000000 in
theorem A_arg7 : after opsA V (Proc.devRef .tc main_arg7) = V (Proc.devRef .tc main_arg7) := by after_results_simp

/-- After the second stretch the hidden layer sits in `main_v31`. -/
theorem R0_h : after opsR0 V (Proc.devRef .tc main_v31) = relu1H (V (Proc.devRef .tc main_v30)) := by
  after_results_simp
  rfl
theorem R0_src : after opsR0 V (Proc.devRef .tc main_v1) = V (Proc.devRef .tc main_v1) := by after_results_simp
theorem R0_dst : after opsR0 V (Proc.devRef .tc main_v3) = V (Proc.devRef .tc main_v3) := by after_results_simp
theorem R0_arg5 : after opsR0 V (Proc.devRef .tc main_arg5) = V (Proc.devRef .tc main_arg5) := by after_results_simp
theorem R0_arg6 : after opsR0 V (Proc.devRef .tc main_arg6) = V (Proc.devRef .tc main_arg6) := by after_results_simp
theorem R0_arg7 : after opsR0 V (Proc.devRef .tc main_arg7) = V (Proc.devRef .tc main_arg7) := by after_results_simp

set_option maxHeartbeats 2000000 in
/-- After the third stretch the second convolution sits in `main_v58`. -/
theorem B_conv : after opsB V (Proc.devRef .tc main_v58)
    = conv2H (V (Proc.devRef .tc main_v31)) (V (Proc.devRef .tc main_v1)) (V (Proc.devRef .tc main_v3))
        (V (Proc.devRef .tc main_arg5)) (V (Proc.devRef .tc main_arg6)) (V (Proc.devRef .tc main_arg7)) := by
  after_results_simp
  rfl

/-- After the fourth stretch its `max · 0` sits in `main_v59`. -/
theorem R1_h : after opsR1 V (Proc.devRef .tc main_v59) = relu2H (V (Proc.devRef .tc main_v58)) := by
  after_results_simp
  rfl

set_option maxHeartbeats 2000000 in
/-- After the last stretch the log-softmax sits in the result buffer. -/
theorem L_out : after opsL V (Proc.devRef .tc main_v60) = lsmH (V (Proc.devRef .tc main_v59)) := by
  after_results_simp
  -- each intermediate value is written to a callee's buffer and read back: itself
  simp only [ofBuf_toBuf]
  -- and the operand, read at its buffer's type, is the buffer's contents
  have hz : (TRef.of (T := ⟨S50000x64, .f32⟩) main_v59).ofBuf (V (Proc.devRef .tc main_v59)) = V (Proc.devRef .tc main_v59) := rfl
  rw [hz]
  unfold lsmH maxH
  rfl

/-- The result buffer after all 91 operations, from any contents of the arguments. -/
theorem result_after : after ops V (Proc.devRef .tc main_v60)
    = lsmH (relu2H (conv2H
        (relu1H (conv1H (V (Proc.devRef .tc main_arg0)) (srcH (V (Proc.devRef .tc main_arg1))) (dstH (V (Proc.devRef .tc main_arg1)))
          (V (Proc.devRef .tc main_arg2)) (V (Proc.devRef .tc main_arg3)) (V (Proc.devRef .tc main_arg4))))
        (srcH (V (Proc.devRef .tc main_arg1))) (dstH (V (Proc.devRef .tc main_arg1)))
        (V (Proc.devRef .tc main_arg5)) (V (Proc.devRef .tc main_arg6)) (V (Proc.devRef .tc main_arg7)))) := by
  rw [ops_split, after_append, after_append, after_append, after_append, L_out, R1_h, B_conv,
    R0_h, R0_src, R0_dst, R0_arg5, R0_arg6, R0_arg7, A_conv, A_src, A_dst, A_arg5, A_arg6, A_arg7]

/-! No operation writes an argument buffer. -/

set_option maxHeartbeats 2000000 in
theorem arg0_after : after ops V (Proc.devRef .tc main_arg0) = V (Proc.devRef .tc main_arg0) := by after_results_simp
set_option maxHeartbeats 2000000 in
theorem arg1_after : after ops V (Proc.devRef .tc main_arg1) = V (Proc.devRef .tc main_arg1) := by after_results_simp
set_option maxHeartbeats 2000000 in
theorem arg2_after : after ops V (Proc.devRef .tc main_arg2) = V (Proc.devRef .tc main_arg2) := by after_results_simp
set_option maxHeartbeats 2000000 in
theorem arg3_after : after ops V (Proc.devRef .tc main_arg3) = V (Proc.devRef .tc main_arg3) := by after_results_simp
set_option maxHeartbeats 2000000 in
theorem arg4_after : after ops V (Proc.devRef .tc main_arg4) = V (Proc.devRef .tc main_arg4) := by after_results_simp
set_option maxHeartbeats 2000000 in
theorem arg5_after : after ops V (Proc.devRef .tc main_arg5) = V (Proc.devRef .tc main_arg5) := by after_results_simp
set_option maxHeartbeats 2000000 in
theorem arg6_after : after ops V (Proc.devRef .tc main_arg6) = V (Proc.devRef .tc main_arg6) := by after_results_simp
set_option maxHeartbeats 2000000 in
theorem arg7_after : after ops V (Proc.devRef .tc main_arg7) = V (Proc.devRef .tc main_arg7) := by after_results_simp

end Stretches

/-! ## The spellings are the formulas -/

theorem srcH_eq (e : (⟨S2x800000, .i32⟩ : BufTy).Contents (Elt F)) : srcH e = Cert.Sage.srcOf e := rfl
theorem dstH_eq (e : (⟨S2x800000, .i32⟩ : BufTy).Contents (Elt F)) : dstH e = Cert.Sage.dstOf e := rfl
theorem meanH_eq (x : (⟨S50000x128, .f32⟩ : BufTy).Contents (Elt F)) (src dst : (⟨S800000, .i32⟩ : BufTy).Contents (Elt F)) :
    meanH x src dst = Cert.Sage.segMeanOf x src dst := rfl

/-- The host's spelling of the log-softmax is the formula. -/
theorem lsmH_eq (z : (⟨S50000x64, .f32⟩ : BufTy).Contents (Elt Ideal)) : lsmH z = Cert.Sage.lsm z := by
  unfold lsmH maxH
  have hr : (⟨2, ![50000, 64]⟩ : Shape).Reduces [1] ⟨1, ![50000]⟩ := by decide
  -- the two sides are the same text up to the shapes' names: compared without unfolding any operation
  with_reducible exact Cert.Sage.hostLsm_eq 50000 64 reducesTo_S50000x64_S50000_d1 hr h_S_ bcast_S_S50000 bcast_S50000_S50000x1_0 bcast_S50000x1_S50000x64_0_1 z

/-- On the extended reals the reference's result buffer ends at the two-layer network of its arguments. -/
theorem result_eq (V : Valuation τ sig (Elt Ideal)) : after ops V (Proc.devRef .tc main_v60)
    = Cert.Sage.twoLayer (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) := by
  rw [result_after]
  generalize V (Proc.devRef .tc main_arg0) = x0
  generalize V (Proc.devRef .tc main_arg1) = x1
  generalize V (Proc.devRef .tc main_arg2) = x2
  generalize V (Proc.devRef .tc main_arg3) = x3
  generalize V (Proc.devRef .tc main_arg4) = x4
  generalize V (Proc.devRef .tc main_arg5) = x5
  generalize V (Proc.devRef .tc main_arg6) = x6
  generalize V (Proc.devRef .tc main_arg7) = x7
  unfold Cert.Sage.twoLayer Cert.Sage.outl
  have h1 : relu1H (conv1H x0 (srcH x1) (dstH x1) x2 x3 x4)
      = Cert.Sage.hid (Cert.Sage.segMeanOf (F := Ideal) x0 (Cert.Sage.srcOf x1) (Cert.Sage.dstOf x1)) x0 x2 x3 x4 := by
    unfold relu1H conv1H
    rw [meanH_eq, srcH_eq, dstH_eq]
    generalize Cert.Sage.segMeanOf (F := Ideal) x0 (Cert.Sage.srcOf x1) (Cert.Sage.dstOf x1) = mean
    exact Cert.Sage.hostHid_eq 50000 128 128 none transposes_S128x128_S128x128_1_0 bcast_S128_S1x128_1
      bcast_S1x128_S50000x128_0_1 bcast_S_S50000x128 mean x0 x2 x4 x3
  rw [h1]
  generalize Cert.Sage.hid (Cert.Sage.segMeanOf (F := Ideal) x0 (Cert.Sage.srcOf x1) (Cert.Sage.dstOf x1)) x0 x2 x3 x4 = h
  have h2 : relu2H (conv2H h (srcH x1) (dstH x1) x5 x6 x7)
      = Cert.Sage.hid (Cert.Sage.segMeanOf (F := Ideal) h (Cert.Sage.srcOf x1) (Cert.Sage.dstOf x1)) h x5 x6 x7 := by
    unfold relu2H conv2H
    rw [meanH_eq, srcH_eq, dstH_eq]
    generalize Cert.Sage.segMeanOf (F := Ideal) h (Cert.Sage.srcOf x1) (Cert.Sage.dstOf x1) = mean
    exact Cert.Sage.hostHid_eq 50000 128 64 none transposes_S64x128_S128x64_1_0 bcast_S64_S1x64_1
      bcast_S1x64_S50000x64_0_1 bcast_S_S50000x64 mean h x5 x7 x6
  rw [h2]
  generalize Cert.Sage.hid (Cert.Sage.segMeanOf (F := Ideal) h (Cert.Sage.srcOf x1) (Cert.Sage.dstOf x1)) h x5 x6 x7 = z
  exact lsmH_eq z

end Cert.ReferenceIdeal.Stages

end
-- ==== Proof.lean ====
/- The kernel program — two mean-aggregating graph-convolution layers, the second followed by a row-wise log-softmax, each
   layer's dense part a pipelined kernel over blocks of 5000 rows, the aggregation on the host — against its plain reference.

   Both programs aggregate with the same chain of host operations (gather the source rows, add them up per destination,
   divide by the clamped edge count); it is carried as one function and never opened. What differs is the dense part:
   the kernels multiply bf16 copies block by block into zero accumulators, the reference multiplies whole arrays with
   dot_general. On the extended reals a change of format is the identity and both products are the same finite sums, the
   bias and the max with zero are added entry by entry in the same order, and the log-softmax subtracts the same row
   maximum and the same logarithm of the same sum of exponentials (the reference's extra join of the maximum with minus
   infinity changes nothing). Every entry of a row depends on that row of the operands only, so the ten blocks of a
   region tile the whole-array formula. No law of the extended reals beyond reordering within one formula is used, so
   the finiteness of the inputs is never needed.

   The frames of the two kernel programs are the generated ones; the reference's is its run with the result dropped. -/
import proofs.«181662_j20512763806336_1_alg».proof.Defs
import proofs.«181662_j20512763806336_1_alg».proof.Proof.Gen.Kernel
import proofs.«181662_j20512763806336_1_alg».proof.Proof.Gen.Kernel.Skeleton
import proofs.«181662_j20512763806336_1_alg».proof.Proof.Gen.Kernel.Launch
import proofs.«181662_j20512763806336_1_alg».proof.Proof.Gen.Kernel.Points
import proofs.«181662_j20512763806336_1_alg».proof.Proof.Gen.Kernel.Frame
import proofs.«181662_j20512763806336_1_alg».proof.Proof.Gen.KernelIdeal
import proofs.«181662_j20512763806336_1_alg».proof.Proof.Gen.KernelIdeal.Skeleton
import proofs.«181662_j20512763806336_1_alg».proof.Proof.Gen.KernelIdeal.Launch
import proofs.«181662_j20512763806336_1_alg».proof.Proof.Gen.KernelIdeal.Points
import proofs.«181662_j20512763806336_1_alg».proof.Proof.Gen.KernelIdeal.Frame
import proofs.«181662_j20512763806336_1_alg».proof.Proof.Gen.ReferenceIdeal
import proofs.«181662_j20512763806336_1_alg».proof.Proof.Gen.Pre_finite_inputs
import proofs.«181662_j20512763806336_1_alg».proof.Proof.KernelIdealRun
import proofs.«181662_j20512763806336_1_alg».proof.Proof.KernelResult
import proofs.«181662_j20512763806336_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments as launched: no operation writes one. -/
theorem frame_referenceIdeal : Cert.frame_ReferenceIdeal := fun m ρ _ =>
  (θ_run Cert.ReferenceIdeal.defs _ _).mono
    (fun _ h c =>
      ⟨(h c Cert.ReferenceIdeal.main_arg0).trans (Cert.ReferenceIdeal.Stages.arg0_after _),
       (h c Cert.ReferenceIdeal.main_arg1).trans (Cert.ReferenceIdeal.Stages.arg1_after _),
       (h c Cert.ReferenceIdeal.main_arg2).trans (Cert.ReferenceIdeal.Stages.arg2_after _),
       (h c Cert.ReferenceIdeal.main_arg3).trans (Cert.ReferenceIdeal.Stages.arg3_after _),
       (h c Cert.ReferenceIdeal.main_arg4).trans (Cert.ReferenceIdeal.Stages.arg4_after _),
       (h c Cert.ReferenceIdeal.main_arg5).trans (Cert.ReferenceIdeal.Stages.arg5_after _),
       (h c Cert.ReferenceIdeal.main_arg6).trans (Cert.ReferenceIdeal.Stages.arg6_after _),
       (h c Cert.ReferenceIdeal.main_arg7).trans (Cert.ReferenceIdeal.Stages.arg7_after _)⟩)
    (Cert.ReferenceIdeal.ValueP.run_after (F := Ideal) m ρ)

/-- Both programs end with the two-layer network of the (agreeing) arguments in their result buffers. -/
theorem algebraic : Cert.algebraic_KernelIdeal_ReferenceIdeal := by
  intro m ρ m' ρ' _ hagree
  refine ⟨fun c => Cert.Sage.twoLayer
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.result_eq m ρ c), (h c).2⟩)
      (Cert.KernelIdeal.GenRun.run_named m ρ)
  · refine (θ_run Cert.ReferenceIdeal.defs _ _).mono (fun _ h c => ?_)
      (Cert.ReferenceIdeal.ValueP.run_after (F := Ideal) m' ρ')
    obtain ⟨e0, e1, e2, e3, e4, e5, e6, e7⟩ := hagree c
    refine ⟨(h c Cert.ReferenceIdeal.main_v60).trans ?_,
       (h c Cert.ReferenceIdeal.main_arg0).trans (Cert.ReferenceIdeal.Stages.arg0_after _),
       (h c Cert.ReferenceIdeal.main_arg1).trans (Cert.ReferenceIdeal.Stages.arg1_after _),
       (h c Cert.ReferenceIdeal.main_arg2).trans (Cert.ReferenceIdeal.Stages.arg2_after _),
       (h c Cert.ReferenceIdeal.main_arg3).trans (Cert.ReferenceIdeal.Stages.arg3_after _),
       (h c Cert.ReferenceIdeal.main_arg4).trans (Cert.ReferenceIdeal.Stages.arg4_after _),
       (h c Cert.ReferenceIdeal.main_arg5).trans (Cert.ReferenceIdeal.Stages.arg5_after _),
       (h c Cert.ReferenceIdeal.main_arg6).trans (Cert.ReferenceIdeal.Stages.arg6_after _),
       (h c Cert.ReferenceIdeal.main_arg7).trans (Cert.ReferenceIdeal.Stages.arg7_after _)⟩
    rw [Cert.ReferenceIdeal.Stages.result_eq]
    show Cert.Sage.twoLayer
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) = _
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
